-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x100000 : Shape := ⟨2, ![2, 100000]⟩
abbrev S768x768 : Shape := ⟨2, ![768, 768]⟩
abbrev S768 : Shape := ⟨1, ![768]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg5 : FVec F S768x768 .f32) (main_arg6 : FVec F S768 .f32) (main_arg7 : FVec F S768x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg5
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg7
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  main_v33

def fn {F : FTy → Type} [FloatOps F] (main_arg0 : FVec F S50000x768 .f32) (main_arg1 : IVec S2x100000 32) (main_arg2 : FVec F S768x768 .f32) (main_arg3 : FVec F S768 .f32) (main_arg4 : FVec F S768x768 .f32) (main_arg5 : FVec F S768x768 .f32) (main_arg6 : FVec F S768 .f32) (main_arg7 : FVec F S768x768 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x768 .f32 := Host.absf main_arg2
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg4
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg5 main_arg6 main_arg7 main_v13 main_v16
-- ==== Kernel.lean ====
abbrev S50000x768 : Shape := ⟨2, ![50000, 768]⟩
abbrev S2x100000 : Shape := ⟨2, ![2, 100000]⟩
abbrev S768x768 : Shape := ⟨2, ![768, 768]⟩
abbrev S768 : Shape := ⟨1, ![768]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S100000x768 : Shape := ⟨2, ![100000, 768]⟩
abbrev S50000 : Shape := ⟨1, ![50000]⟩
abbrev S50000x1 : Shape := ⟨2, ![50000, 1]⟩
abbrev S1x768 : Shape := ⟨2, ![1, 768]⟩
abbrev S2000x768 : Shape := ⟨2, ![2000, 768]⟩

abbrev nBuf : Space → Nat
  | .hbm => 72
  | .vmem => 18
  | .smem => 0
  | _ => 0

abbrev bufTy : (tb : Table) → Fin (tcTables nBuf tb) → BufTy
  | .hbm, ⟨0, _⟩ => ⟨S50000x768, .f32⟩
  | .hbm, ⟨1, _⟩ => ⟨S2x100000, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S1x100000, .i32⟩
  | .hbm, ⟨9, _⟩ => ⟨S100000, .i32⟩
  | .hbm, ⟨10, _⟩ => ⟨S1x100000, .i32⟩
  | .hbm, ⟨11, _⟩ => ⟨S100000, .i32⟩
  | .hbm, ⟨12, _⟩ => ⟨S_, .i32⟩
  | .hbm, ⟨13, _⟩ => ⟨S100000, .i32⟩
  | .hbm, ⟨14, _⟩ => ⟨S100000, .i1⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S100000x768, .f32⟩
  | .hbm, ⟨21, _⟩ => ⟨S_, .f32⟩
  | .hbm, ⟨22, _⟩ => ⟨S50000x768, .f32⟩
  | .hbm, ⟨23, _⟩ => ⟨S100000x1, .i32⟩
  | .hbm, ⟨24, _⟩ => ⟨S50000x768, .f32⟩
  | .hbm, ⟨25, _⟩ => ⟨S_, .f32⟩
  | .hbm, ⟨26, _⟩ => ⟨S100000, .f32⟩
  | .hbm, ⟨27, _⟩ => ⟨S_, .f32⟩
  | .hbm, ⟨28, _⟩ => ⟨S50000, .f32⟩
  | .hbm, ⟨29, _⟩ => ⟨S100000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x768, .f32⟩
  | .hbm, ⟨37, _⟩ => ⟨S50000x768, .f32⟩
  | .hbm, ⟨38, _⟩ => ⟨S768x768, .f32⟩
  | .hbm, ⟨39, _⟩ => ⟨S768x768, .f32⟩
  | .hbm, ⟨40, _⟩ => ⟨S1x768, .f32⟩
  | .hbm, ⟨41, _⟩ => ⟨S50000x768, .f32⟩
  | .hbm, ⟨42, _⟩ => ⟨S_, .i32⟩
  | .hbm, ⟨43, _⟩ => ⟨S100000, .i32⟩
  | .hbm, ⟨44, _⟩ => ⟨S100000, .i1⟩
  | .hbm, ⟨45, _⟩ => ⟨S_, .i32⟩
  | .hbm, ⟨46, _⟩ => ⟨S100000, .i32⟩
  | .hbm, ⟨47, _⟩ => ⟨S100000, .i32⟩
  | .hbm, ⟨48, _⟩ => ⟨S100000, .i32⟩
  | .hbm, ⟨49, _⟩ => ⟨S100000x1, .i32⟩
  | .hbm, ⟨50, _⟩ => ⟨S100000x768, .f32⟩
  | .hbm, ⟨51, _⟩ => ⟨S_, .f32⟩
  | .hbm, ⟨52, _⟩ => ⟨S50000x768, .f32⟩
  | .hbm, ⟨53, _⟩ => ⟨S100000x1, .i32⟩
  | .hbm, ⟨54, _⟩ => ⟨S50000x768, .f32⟩
  | .hbm, ⟨55, _⟩ => ⟨S_, .f32⟩
  | .hbm, ⟨56, _⟩ => ⟨S100000, .f32⟩
  | .hbm, ⟨57, _⟩ => ⟨S_, .f32⟩
  | .hbm, ⟨58, _⟩ => ⟨S50000, .f32⟩
  | .hbm, ⟨59, _⟩ => ⟨S100000x1, .i32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x768, .f32⟩
  | .hbm, ⟨67, _⟩ => ⟨S50000x768, .f32⟩
  | .hbm, ⟨68, _⟩ => ⟨S768x768, .f32⟩
  | .hbm, ⟨69, _⟩ => ⟨S768x768, .f32⟩
  | .hbm, ⟨70, _⟩ => ⟨S1x768, .f32⟩
  | .hbm, ⟨71, _⟩ => ⟨S50000x768, .f32⟩
  | .local _ .vmem, ⟨0, _⟩ => ⟨S2000x768, .f32⟩
  | .local _ .vmem, ⟨1, _⟩ => ⟨S2000x768, .f32⟩
  | .local _ .vmem, ⟨2, _⟩ => ⟨S2000x768, .f32⟩
  | .local _ .vmem, ⟨3, _⟩ => ⟨S2000x768, .f32⟩
  | .local _ .vmem, ⟨4, _⟩ => ⟨S768x768, .f32⟩
  | .local _ .vmem, ⟨5, _⟩ => ⟨S768x768, .f32⟩
  | .local _ .vmem, ⟨6, _⟩ => ⟨S1x768, .f32⟩
  | .local _ .vmem, ⟨7, _⟩ => ⟨S2000x768, .f32⟩
  | .local _ .vmem, ⟨8, _⟩ => ⟨S2000x768, .f32⟩
  | .local _ .vmem, ⟨9, _⟩ => ⟨S2000x768, .f32⟩
  | .local _ .vmem, ⟨10, _⟩ => ⟨S2000x768, .f32⟩
  | .local _ .vmem, ⟨11, _⟩ => ⟨S2000x768, .f32⟩
  | .local _ .vmem, ⟨12, _⟩ => ⟨S2000x768, .f32⟩
  | .local _ .vmem, ⟨13, _⟩ => ⟨S768x768, .f32⟩
  | .local _ .vmem, ⟨14, _⟩ => ⟨S768x768, .f32⟩
  | .local _ .vmem, ⟨15, _⟩ => ⟨S1x768, .f32⟩
  | .local _ .vmem, ⟨16, _⟩ => ⟨S2000x768, .f32⟩
  | .local _ .vmem, ⟨17, _⟩ => ⟨S2000x768, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_call1_v0 : Ref sig .tc := ⟨.hbm, 62, rfl⟩
abbrev main_call1_v1 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S_S50000x768 : S_.BroadcastsInDim S50000x768 (![] : Fin 0 → Fin S50000x768.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x768_0_1 : S50000x1.BroadcastsInDim S50000x768 (![0, 1] : Fin 2 → Fin S50000x768.rank)
  transposes_S768x768_S768x768_1_0 : S768x768.Transposes [1, 0] S768x768
  shapeCasts_S768_S1x768 : S768.ShapeCasts S1x768
  inb_S2000x768_S2000x768_0_0 : ∀ a, (![0, 0] : Fin 2 → Nat) a + S2000x768.size a ≤ S2000x768.size a
  h_S2000x768 : 0 < S2000x768.numel
  shapeCasts_S2000x768_S2000x768 : S2000x768.ShapeCasts S2000x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  gather_S50000x768_S100000x1_S100000x768_1_0_n_n_0_1_1768_wf : GatherDims.WF S50000x768 S100000x1 S100000x768 [1] [0] [] [0] [] 1 ![1, 768]
  scatter_S50000x768_S100000x1_S100000x768_1_0_0_1_wf : ScatterDims.WF S50000x768 S100000x1 S100000x768 [1] [0] [0] 1
  scatter_S50000_S100000x1_S100000_n_0_0_1_wf : ScatterDims.WF S50000 S100000x1 S100000 [] [0] [0] 1
  dot_S2000x768_S768x768_S2000x768_1_0_0_1_n_n_wf : DotDims.WF S2000x768 S768x768 S2000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x768.size a ≤ S50000x768.size a
  hwx0_1 : ∀ i : grid0.Coords, EltTy.bits .f32 = 32 ∨ (Rect.block (s := S50000x768) S2000x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x768.size a ≤ S50000x768.size a
  hwx0_5 : ∀ i : grid0.Coords, EltTy.bits .f32 = 32 ∨ (Rect.block (s := S50000x768) S2000x768.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x768.size a ≤ S50000x768.size a
  hwx1_0 : ∀ i : grid1.Coords, EltTy.bits .f32 = 32 ∨ (Rect.block (s := S50000x768) S2000x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x768.size a ≤ S50000x768.size a
  hwx1_1 : ∀ i : grid1.Coords, EltTy.bits .f32 = 32 ∨ (Rect.block (s := S50000x768) S2000x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x768.size a ≤ S768x768.size a
  hwx1_2 : ∀ i : grid1.Coords, EltTy.bits .f32 = 32 ∨ (Rect.block (s := S768x768) S768x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .f32 = 32 ∨ (Rect.block (s := S768x768) S768x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x768.size a ≤ S50000x768.size a
  hwx1_5 : ∀ i : grid1.Coords, EltTy.bits .f32 = 32 ∨ (Rect.block (s := S50000x768) S2000x768.size (cc1_transform_5 i) (hinb1_5 i)).WholeWords (EltTy.packing .f32)

variable [Facts₀]

def gather_S50000x768_S100000x1_S100000x768_1_0_n_n_0_1_1768 : GatherDims S50000x768 S100000x1 S100000x768 where
  offsetDims := [1]
  collapsedSliceDims := [0]
  operandBatchingDims := []
  startIndicesBatchingDims := []
  startIndexMap := [0]
  indexVectorDim := 1
  sliceSizes := ![1, 768]
  wf := gather_S50000x768_S100000x1_S100000x768_1_0_n_n_0_1_1768_wf
def scatter_S50000x768_S100000x1_S100000x768_1_0_0_1 : ScatterDims S50000x768 S100000x1 S100000x768 where
  updateWindowDims := [1]
  insertedWindowDims := [0]
  scatterDimsToOperandDims := [0]
  indexVectorDim := 1
  wf := scatter_S50000x768_S100000x1_S100000x768_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def dot_S2000x768_S768x768_S2000x768_1_0_0_1_n_n : DotDims S2000x768 S768x768 S2000x768 where
  lhsContracting := [1]
  rhsContracting := [0]
  lhsNonContracting := [0]
  rhsNonContracting := [1]
  lhsBatch := []
  rhsBatch := []
  wf := dot_S2000x768_S768x768_S2000x768_1_0_0_1_n_n_wf

abbrev win0_0 : Pipeline.Window sig grid0 :=
  Pipeline.Window.ofSpec (Memref.whole main_v21) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S768x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x768 : Shape := ⟨2, ![50000, 768]⟩
abbrev S2x100000 : Shape := ⟨2, ![2, 100000]⟩
abbrev S768x768 : Shape := ⟨2, ![768, 768]⟩
abbrev S768 : Shape := ⟨1, ![768]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S100000x768 : Shape := ⟨2, ![100000, 768]⟩
abbrev S50000 : Shape := ⟨1, ![50000]⟩
abbrev S50000x1 : Shape := ⟨2, ![50000, 1]⟩
abbrev S1x768 : Shape := ⟨2, ![1, 768]⟩

abbrev nBuf : Space → Nat
  | .hbm => 83
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x100000, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S1x100000, .i32⟩
  | .hbm, ⟨9, _⟩ => ⟨S100000, .i32⟩
  | .hbm, ⟨10, _⟩ => ⟨S1x100000, .i32⟩
  | .hbm, ⟨11, _⟩ => ⟨S100000, .i32⟩
  | .hbm, ⟨12, _⟩ => ⟨S_, .i32⟩
  | .hbm, ⟨13, _⟩ => ⟨S100000, .i32⟩
  | .hbm, ⟨14, _⟩ => ⟨S100000, .i1⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S100000x768, .f32⟩
  | .hbm, ⟨21, _⟩ => ⟨S_, .f32⟩
  | .hbm, ⟨22, _⟩ => ⟨S50000x768, .f32⟩
  | .hbm, ⟨23, _⟩ => ⟨S100000x1, .i32⟩
  | .hbm, ⟨24, _⟩ => ⟨S50000x768, .f32⟩
  | .hbm, ⟨25, _⟩ => ⟨S_, .f32⟩
  | .hbm, ⟨26, _⟩ => ⟨S100000, .f32⟩
  | .hbm, ⟨27, _⟩ => ⟨S_, .f32⟩
  | .hbm, ⟨28, _⟩ => ⟨S50000, .f32⟩
  | .hbm, ⟨29, _⟩ => ⟨S100000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x768, .f32⟩
  | .hbm, ⟨37, _⟩ => ⟨S50000x768, .f32⟩
  | .hbm, ⟨38, _⟩ => ⟨S768x768, .f32⟩
  | .hbm, ⟨39, _⟩ => ⟨S50000x768, .f32⟩
  | .hbm, ⟨40, _⟩ => ⟨S1x768, .f32⟩
  | .hbm, ⟨41, _⟩ => ⟨S50000x768, .f32⟩
  | .hbm, ⟨42, _⟩ => ⟨S50000x768, .f32⟩
  | .hbm, ⟨43, _⟩ => ⟨S768x768, .f32⟩
  | .hbm, ⟨44, _⟩ => ⟨S50000x768, .f32⟩
  | .hbm, ⟨45, _⟩ => ⟨S50000x768, .f32⟩
  | .hbm, ⟨46, _⟩ => ⟨S_, .f32⟩
  | .hbm, ⟨47, _⟩ => ⟨S50000x768, .f32⟩
  | .hbm, ⟨48, _⟩ => ⟨S50000x768, .f32⟩
  | .hbm, ⟨49, _⟩ => ⟨S_, .i32⟩
  | .hbm, ⟨50, _⟩ => ⟨S100000, .i32⟩
  | .hbm, ⟨51, _⟩ => ⟨S100000, .i1⟩
  | .hbm, ⟨52, _⟩ => ⟨S_, .i32⟩
  | .hbm, ⟨53, _⟩ => ⟨S100000, .i32⟩
  | .hbm, ⟨54, _⟩ => ⟨S100000, .i32⟩
  | .hbm, ⟨55, _⟩ => ⟨S100000, .i32⟩
  | .hbm, ⟨56, _⟩ => ⟨S100000x1, .i32⟩
  | .hbm, ⟨57, _⟩ => ⟨S100000x768, .f32⟩
  | .hbm, ⟨58, _⟩ => ⟨S_, .f32⟩
  | .hbm, ⟨59, _⟩ => ⟨S50000x768, .f32⟩
  | .hbm, ⟨60, _⟩ => ⟨S100000x1, .i32⟩
  | .hbm, ⟨61, _⟩ => ⟨S50000x768, .f32⟩
  | .hbm, ⟨62, _⟩ => ⟨S_, .f32⟩
  | .hbm, ⟨63, _⟩ => ⟨S100000, .f32⟩
  | .hbm, ⟨64, _⟩ => ⟨S_, .f32⟩
  | .hbm, ⟨65, _⟩ => ⟨S50000, .f32⟩
  | .hbm, ⟨66, _⟩ => ⟨S100000x1, .i32⟩
  | .hbm, ⟨67, _⟩ => ⟨S50000, .f32⟩
  | .hbm, ⟨68, _⟩ => ⟨S_, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x768, .f32⟩
  | .hbm, ⟨74, _⟩ => ⟨S50000x768, .f32⟩
  | .hbm, ⟨75, _⟩ => ⟨S768x768, .f32⟩
  | .hbm, ⟨76, _⟩ => ⟨S50000x768, .f32⟩
  | .hbm, ⟨77, _⟩ => ⟨S1x768, .f32⟩
  | .hbm, ⟨78, _⟩ => ⟨S50000x768, .f32⟩
  | .hbm, ⟨79, _⟩ => ⟨S50000x768, .f32⟩
  | .hbm, ⟨80, _⟩ => ⟨S768x768, .f32⟩
  | .hbm, ⟨81, _⟩ => ⟨S50000x768, .f32⟩
  | .hbm, ⟨82, _⟩ => ⟨S50000x768, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S_S50000x768 : S_.BroadcastsInDim S50000x768 (![] : Fin 0 → Fin S50000x768.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x768_0_1 : S50000x1.BroadcastsInDim S50000x768 (![0, 1] : Fin 2 → Fin S50000x768.rank)
  transposes_S768x768_S768x768_1_0 : S768x768.Transposes [1, 0] S768x768
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  gather_S50000x768_S100000x1_S100000x768_1_0_n_n_0_1_1768_wf : GatherDims.WF S50000x768 S100000x1 S100000x768 [1] [0] [] [0] [] 1 ![1, 768]
  scatter_S50000x768_S100000x1_S100000x768_1_0_0_1_wf : ScatterDims.WF S50000x768 S100000x1 S100000x768 [1] [0] [0] 1
  scatter_S50000_S100000x1_S100000_n_0_0_1_wf : ScatterDims.WF S50000 S100000x1 S100000 [] [0] [0] 1
  dot_S50000x768_S768x768_S50000x768_1_0_0_1_n_n_wf : DotDims.WF S50000x768 S768x768 S50000x768 [1] [0] [0] [1] [] []

variable [Facts₀]

def gather_S50000x768_S100000x1_S100000x768_1_0_n_n_0_1_1768 : GatherDims S50000x768 S100000x1 S100000x768 where
  offsetDims := [1]
  collapsedSliceDims := [0]
  operandBatchingDims := []
  startIndicesBatchingDims := []
  startIndexMap := [0]
  indexVectorDim := 1
  sliceSizes := ![1, 768]
  wf := gather_S50000x768_S100000x1_S100000x768_1_0_n_n_0_1_1768_wf
def scatter_S50000x768_S100000x1_S100000x768_1_0_0_1 : ScatterDims S50000x768 S100000x1 S100000x768 where
  updateWindowDims := [1]
  insertedWindowDims := [0]
  scatterDimsToOperandDims := [0]
  indexVectorDim := 1
  wf := scatter_S50000x768_S100000x1_S100000x768_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def dot_S50000x768_S768x768_S50000x768_1_0_0_1_n_n : DotDims S50000x768 S768x768 S50000x768 where
  lhsContracting := [1]
  rhsContracting := [0]
  lhsNonContracting := [0]
  rhsNonContracting := [1]
  lhsBatch := []
  rhsBatch := []
  wf := dot_S50000x768_S768x768_S50000x768_1_0_0_1_n_n_wf

class Facts : Prop extends Facts₀ where

variable [Facts]
-- ==== Proof.Payload.lean ====
/-
  What one grid step of each kernel computes, entry by entry, on the extended reals.

  A step holds a block of 2000 rows of the aggregate (`x0`) and of the node features (`x1`), the two whole
  transposed weight matrices (`x2`, `x3`) and the bias as one row (`x4`). The narrowing of the operands to
  bf16 is the identity on the extended reals, a matrix product into a zero accumulator is the plain sum over the
  contracted axis, and the bias row is repeated down the block. So entry (p, q) of the stored block is

      (sum_k x0(p,k) * x2(k,q)  +  sum_k x1(p,k) * x3(k,q))  +  x4(0,q),

  and the first kernel takes the maximum of that with zero.
-/
import proofs.«139027_j38946763440879_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ## The matrix product's operand indices: row from the output index, column from the contraction -/

theorem lhs_axis0 (i : S2000x768.Idx) (q : dot_S2000x768_S768x768_S2000x768_1_0_0_1_n_n.contr.Idx) :
    (dot_S2000x768_S768x768_S2000x768_1_0_0_1_n_n.lhsIdx i q 0).val = (i 0).val := by
  unfold DotDims.lhsIdx
  rw [dif_neg (show ¬(0 : Fin S2000x768.rank) ∈ dot_S2000x768_S768x768_S2000x768_1_0_0_1_n_n.lhsBatch by decide), dif_pos (show (0 : Fin S2000x768.rank) ∈ dot_S2000x768_S768x768_S2000x768_1_0_0_1_n_n.lhsNonContracting by decide)]
  rfl
theorem lhs_axis1 (i : S2000x768.Idx) (q : dot_S2000x768_S768x768_S2000x768_1_0_0_1_n_n.contr.Idx) :
    (dot_S2000x768_S768x768_S2000x768_1_0_0_1_n_n.lhsIdx i q 1).val = (q ⟨0, by decide⟩).val :=
  dot_S2000x768_S768x768_S2000x768_1_0_0_1_n_n.lhsIdx_val_of_single rfl i q
theorem rhs_axis0 (i : S2000x768.Idx) (q : dot_S2000x768_S768x768_S2000x768_1_0_0_1_n_n.contr.Idx) :
    (dot_S2000x768_S768x768_S2000x768_1_0_0_1_n_n.rhsIdx i q 0).val = (q ⟨0, by decide⟩).val :=
  dot_S2000x768_S768x768_S2000x768_1_0_0_1_n_n.rhsIdx_val_of_single rfl i q
theorem rhs_axis1 (i : S2000x768.Idx) (q : dot_S2000x768_S768x768_S2000x768_1_0_0_1_n_n.contr.Idx) :
    (dot_S2000x768_S768x768_S2000x768_1_0_0_1_n_n.rhsIdx i q 1).val = (i 1).val := by
  unfold DotDims.rhsIdx
  rw [dif_neg (show ¬(1 : Fin S768x768.rank) ∈ dot_S2000x768_S768x768_S2000x768_1_0_0_1_n_n.rhsBatch by decide), dif_pos (show (1 : Fin S768x768.rank) ∈ dot_S2000x768_S768x768_S2000x768_1_0_0_1_n_n.rhsNonContracting by decide)]
  rfl

/-- A [2000, 768] by [768, 768] product into a zero accumulator, at (p, q): the sum over the shared axis. -/
theorem mm_apply {φ₁ φ₂ : FTy} (l : FVec Ideal S2000x768 φ₁) (r : FVec Ideal S768x768 φ₂) (p : Fin 2000) (q : Fin 768) :
    matmul (F := Ideal) dot_S2000x768_S768x768_S2000x768_1_0_0_1_n_n none l r (constant (F := Ideal) S2000x768 .f32 0x00000000#32) (ix2 p q)
      = ∑ k : Fin 768, l (ix2 p k) * r (ix2 k q) := by
  unfold matmul
  rw [Ideal.matmul_constant_zero_apply, ← Equiv.sum_comp (contrEquiv1 dot_S2000x768_S768x768_S2000x768_1_0_0_1_n_n 768 rfl rfl).symm]
  refine Finset.sum_congr rfl fun k _ => ?_
  have hk := contrEquiv1_symm_val dot_S2000x768_S768x768_S2000x768_1_0_0_1_n_n 768 rfl rfl k
  have el : dot_S2000x768_S768x768_S2000x768_1_0_0_1_n_n.lhsIdx (ix2 p q) ((contrEquiv1 dot_S2000x768_S768x768_S2000x768_1_0_0_1_n_n 768 rfl rfl).symm k) = ix2 p k := funext fun a => Fin.ext (by
    match a with
    | ⟨0, _⟩ => exact lhs_axis0 _ _
    | ⟨1, _⟩ => exact (lhs_axis1 _ _).trans hk)
  have er : dot_S2000x768_S768x768_S2000x768_1_0_0_1_n_n.rhsIdx (ix2 p q) ((contrEquiv1 dot_S2000x768_S768x768_S2000x768_1_0_0_1_n_n 768 rfl rfl).symm k) = ix2 k q := funext fun a => Fin.ext (by
    match a with
    | ⟨0, _⟩ => exact (rhs_axis0 _ _).trans hk
    | ⟨1, _⟩ => exact rhs_axis1 _ _)
  rw [el, er]

/-! ## The two stored blocks at an entry -/

/-- The second kernel's stored block at (p, q): both products, then the bias row. -/
theorem k1_pay1_apply (x0 x1 : Vec Ideal S2000x768 .f32) (x2 x3 : Vec Ideal S768x768 .f32) (x4 : Vec Ideal S1x768 .f32)
    (p : Fin 2000) (q : Fin 768) :
    k1_pay1 (F := Ideal) x0 x1 x2 x3 x4 (ix2 p q)
      = ((∑ k : Fin 768, x0 (ix2 p k) * x2 (ix2 k q)) + (∑ k : Fin 768, x1 (ix2 p k) * x3 (ix2 k q))) + x4 (ix2 (0 : Fin 1) q) := by
  unfold k1_pay1
  rw [addf_apply, addf_apply, mm_apply, mm_apply, broadcastTo_1b_ab_apply]
  simp only [truncf_apply, shapeCast_self]

/-- The first kernel's stored block at (p, q): the same, rectified. -/
theorem k0_pay1_apply (x0 x1 : Vec Ideal S2000x768 .f32) (x2 x3 : Vec Ideal S768x768 .f32) (x4 : Vec Ideal S1x768 .f32)
    (p : Fin 2000) (q : Fin 768) :
    k0_pay1 (F := Ideal) x0 x1 x2 x3 x4 (ix2 p q)
      = max (((∑ k : Fin 768, x0 (ix2 p k) * x2 (ix2 k q)) + (∑ k : Fin 768, x1 (ix2 p k) * x3 (ix2 k q))) + x4 (ix2 (0 : Fin 1) q)) 0 := by
  unfold k0_pay1
  rw [maximumf_apply, addf_apply, addf_apply, mm_apply, mm_apply, broadcastTo_1b_ab_apply, broadcast_apply]
  simp only [truncf_apply, shapeCast_self]
  exact congrArg (max _) Ideal.ofBits_zero_f32

end Cert.KernelIdeal.Payload

end
-- ==== Proof.Spec.lean ====
/-
  The function both programs compute, on the extended reals.

  A GraphSAGE layer over N = 50000 nodes with D = 768 features takes the mean-aggregated neighbour features `a`,
  the node features `h`, two D x D weight matrices ALREADY TRANSPOSED (`wl`, `wr`: entry (k, q) multiplies input
  feature k into output feature q) and a bias `b`, and returns at node p, feature q

      (sum_k a(p,k) * wl(k,q)  +  sum_k h(p,k) * wr(k,q))  +  b(q).

  The network is two such layers with max(., 0) between them; the aggregation `A` (gather along edges, scatter-add,
  divide by the clipped in-degree) is the same array-to-array map in both layers and is carried here as a parameter:
  nothing below looks inside it.

  The only algebra that separates the two programs is where the bias is added: (s + t) + b against (s + b) + t.
  Addition on the extended reals is commutative and associative (with (+inf) + (-inf) = -inf), so the two agree
  with no finiteness assumption.
-/
import Idealize.ShloMosaic.PureOps.Ideal
import Idealize.ShloMosaic.Lib.ValueIdx

noncomputable section

namespace Cert.Sage

open Idealize.ShloMosaic Idealize.ShloMosaic.ValueIdx

/-- Node features: 50000 nodes by 768 features. -/
abbrev SN : Shape := ⟨2, ![50000, 768]⟩
/-- A weight matrix. -/
abbrev SW : Shape := ⟨2, ![768, 768]⟩
/-- A bias vector. -/
abbrev SB : Shape := ⟨1, ![768]⟩

/-- One layer at node `p`, output feature `q`: the two matrix products, then the bias. -/
def linAt (a h : SN.Idx → EReal) (wl wr : SW.Idx → EReal) (b : SB.Idx → EReal) (p : Fin 50000) (q : Fin 768) : EReal :=
  ((∑ k : Fin 768, a (ix2 p k) * wl (ix2 k q)) + (∑ k : Fin 768, h (ix2 p k) * wr (ix2 k q))) + b (ix1 q)

/-- One layer as an array. -/
def lin (a h : SN.Idx → EReal) (wl wr : SW.Idx → EReal) (b : SB.Idx → EReal) : SN.Idx → EReal :=
  fun i => linAt a h wl wr b (i 0) (i 1)

/-- The rectifier, entry by entry. -/
def relu (f : SN.Idx → EReal) : SN.Idx → EReal := fun i => max (f i) 0

/-- The hidden features: layer one, rectified. -/
def hidden (A : (SN.Idx → EReal) → SN.Idx → EReal) (x : SN.Idx → EReal) (w1l w1r : SW.Idx → EReal) (b1 : SB.Idx → EReal) :
    SN.Idx → EReal :=
  relu (lin (A x) x w1l w1r b1)

/-- The network: layer two applied to the hidden features and their aggregate. -/
def net (A : (SN.Idx → EReal) → SN.Idx → EReal) (x : SN.Idx → EReal) (w1l w1r : SW.Idx → EReal) (b1 : SB.Idx → EReal)
    (w2l w2r : SW.Idx → EReal) (b2 : SB.Idx → EReal) : SN.Idx → EReal :=
  lin (A (hidden A x w1l w1r b1)) (hidden A x w1l w1r b1) w2l w2r b2

theorem lin_apply (a h : SN.Idx → EReal) (wl wr : SW.Idx → EReal) (b : SB.Idx → EReal) (p : Fin 50000) (q : Fin 768) :
    lin a h wl wr b (ix2 p q) = linAt a h wl wr b p q := rfl

/-- The bias may be added before the second product: (s + b) + t = (s + t) + b on the extended reals. -/
theorem linAt_bias_first (a h : SN.Idx → EReal) (wl wr : SW.Idx → EReal) (b : SB.Idx → EReal) (p : Fin 50000) (q : Fin 768) :
    ((∑ k : Fin 768, a (ix2 p k) * wl (ix2 k q)) + b (ix1 q)) + (∑ k : Fin 768, h (ix2 p k) * wr (ix2 k q))
      = linAt a h wl wr b p q := by
  unfold linAt
  exact add_right_comm _ _ _

end Cert.Sage

end
-- ==== Proof.Region0.lean ====
/-
  What the first pallas_call leaves in its output array, as one function of the arrays it finds on entry.

  The grid has 25 steps; step t works on rows 2000 t .. 2000 t + 1999 of the aggregate and of the node features,
  on the two whole weight matrices and the one bias row, and writes rows 2000 t .. 2000 t + 1999 of the output.
  Row 2000 t + p of the output depends only on the same row of the two row-blocked inputs, so every step's block
  is the restriction of ONE whole-array function, a layer of the network followed by the rectifier, and the 25 blocks tile the 50000 rows.
-/
import proofs.«139027_j38946763440879_1_alg».proof.Proof.Gen.KernelIdeal.Frame
import proofs.«139027_j38946763440879_1_alg».proof.Proof.Payload
import proofs.«139027_j38946763440879_1_alg».proof.Proof.Spec

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The arrays the region reads, at their literal types -/

/-- The aggregated features on entry. -/
abbrev aggArr (c : Dev nD) : Vec Ideal S50000x768 .f32 := V c main_v21
/-- The node features on entry. -/
abbrev featArr (c : Dev nD) : Vec Ideal S50000x768 .f32 := V c main_arg0
/-- The transposed weight applied to the aggregate. -/
abbrev wlArr (c : Dev nD) : Vec Ideal S768x768 .f32 := V c main_v22
/-- The transposed weight applied to the node features. -/
abbrev wrArr (c : Dev nD) : Vec Ideal S768x768 .f32 := V c main_v23
/-- The bias, as a one-row matrix. -/
abbrev biasRow (c : Dev nD) : Vec Ideal S1x768 .f32 := V c main_v24

/-- The output array after the region: the layer, rectified, of the entry arrays. -/
def whole (c : Dev nD) : Vec Ideal S50000x768 .f32 :=
  Cert.Sage.relu (Cert.Sage.lin (aggArr V c) (featArr V c) (wlArr V c) (wrArr V c) (fun j => biasRow V c (ix2 (0 : Fin 1) (j 0))))

theorem hz : (![0, 0] : Fin 2 → Nat) = fun _ => 0 := funext fun a => by fin_cases a <;> rfl

/-- The row a step's block entry lands on: step t, row p of the block, is row 2000 t + p of the array. -/
def rowOf (t : Fin cfg0.N) (p : Fin 2000) : Fin 50000 :=
  ⟨t.val * 2000 + p.val, by
    have ht : t.val < 25 := lt_of_lt_of_eq t.isLt N_0
    have hp := p.isLt
    omega⟩

/-- The printed index maps over the grid: the row-blocked windows sit at block row t, column block 0; the
    weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block at an entry -/

theorem agg_blk (c : Dev nD) (t : Fin cfg0.N) (p : Fin 2000) (k : Fin 768) :
    iblk0 V c 0 t (ix2 p k) = aggArr V c (ix2 (rowOf t p) k) := by
  show V c main_v21 (((cfg0.win 0).blk t).view.emb (ix2 p k)) = V c main_v21 (ix2 (rowOf t p) k)
  refine congrArg (V c main_v21) (funext fun a => Fin.ext ?_)
  obtain ⟨e00, e01, -⟩ := idx_facts t
  match a with
  | ⟨0, _⟩ => show win0_0.index t (0 : Fin 2) * 2000 + 1 * p.val = t.val * 2000 + p.val; omega
  | ⟨1, _⟩ => show win0_0.index t (1 : Fin 2) * 768 + 1 * k.val = k.val; omega

theorem feat_blk (c : Dev nD) (t : Fin cfg0.N) (p : Fin 2000) (k : Fin 768) :
    iblk0 V c 1 t (ix2 p k) = featArr V c (ix2 (rowOf t p) k) := by
  show V c main_arg0 (((cfg0.win 1).blk t).view.emb (ix2 p k)) = V c main_arg0 (ix2 (rowOf t p) k)
  refine congrArg (V c main_arg0) (funext fun a => Fin.ext ?_)
  obtain ⟨-, -, e10, e11, -⟩ := idx_facts t
  match a with
  | ⟨0, _⟩ => show win0_1.index t (0 : Fin 2) * 2000 + 1 * p.val = t.val * 2000 + p.val; omega
  | ⟨1, _⟩ => show win0_1.index t (1 : Fin 2) * 768 + 1 * k.val = k.val; omega

theorem wl_blk (c : Dev nD) (t : Fin cfg0.N) (k q : Fin 768) :
    iblk0 V c 2 t (ix2 k q) = wlArr V c (ix2 k q) := by
  show V c main_v22 (((cfg0.win 2).blk t).view.emb (ix2 k q)) = V c main_v22 (ix2 k q)
  refine congrArg (V c main_v22) (funext fun a => Fin.ext ?_)
  obtain ⟨-, -, -, -, e20, e21, -⟩ := idx_facts t
  match a with
  | ⟨0, _⟩ => show win0_2.index t (0 : Fin 2) * 768 + 1 * k.val = k.val; omega
  | ⟨1, _⟩ => show win0_2.index t (1 : Fin 2) * 768 + 1 * q.val = q.val; omega

theorem wr_blk (c : Dev nD) (t : Fin cfg0.N) (k q : Fin 768) :
    iblk0 V c 3 t (ix2 k q) = wrArr V c (ix2 k q) := by
  show V c main_v23 (((cfg0.win 3).blk t).view.emb (ix2 k q)) = V c main_v23 (ix2 k q)
  refine congrArg (V c main_v23) (funext fun a => Fin.ext ?_)
  obtain ⟨-, -, -, -, -, -, e30, e31, -⟩ := idx_facts t
  match a with
  | ⟨0, _⟩ => show win0_3.index t (0 : Fin 2) * 768 + 1 * k.val = k.val; omega
  | ⟨1, _⟩ => show win0_3.index t (1 : Fin 2) * 768 + 1 * q.val = q.val; omega

theorem bias_blk (c : Dev nD) (t : Fin cfg0.N) (q : Fin 768) :
    iblk0 V c 4 t (ix2 (0 : Fin 1) q) = biasRow V c (ix2 (0 : Fin 1) q) := by
  show V c main_v24 (((cfg0.win 4).blk t).view.emb (ix2 (0 : Fin 1) q)) = V c main_v24 (ix2 (0 : Fin 1) q)
  refine congrArg (V c main_v24) (funext fun a => Fin.ext ?_)
  obtain ⟨-, -, -, -, -, -, -, -, e40, e41, -⟩ := idx_facts t
  match a with
  | ⟨0, _⟩ => show win0_4.index t (0 : Fin 2) * 1 + 1 * 0 = 0; omega
  | ⟨1, _⟩ => show win0_4.index t (1 : Fin 2) * 768 + 1 * q.val = q.val; omega

/-- Entry (p, q) of step t's output block is entry (2000 t + p, q) of the array. -/
theorem out_emb (t : Fin cfg0.N) (p : Fin 2000) (q : Fin 768) :
    ((cfg0.win 5).blk t).view.emb (ix2 p q) = (ix2 (rowOf t p) q : S50000x768.Idx) := by
  funext a; apply Fin.ext
  obtain ⟨-, -, -, -, -, -, -, -, -, -, e50, e51⟩ := idx_facts t
  match a with
  | ⟨0, _⟩ => show win0_5.index t (0 : Fin 2) * 2000 + 1 * p.val = t.val * 2000 + p.val; omega
  | ⟨1, _⟩ => show win0_5.index t (1 : Fin 2) * 768 + 1 * q.val = q.val; omega

/-! ## What a step writes back, and the array after all 25 -/

/-- Step t writes back its block of `whole`. -/
theorem flushed_eq (c : Dev nD) (t : Fin cfg0.N) :
    (dat0 (F := Ideal) V c).flushed 5 t = ((cfg0.win 5).blk t).view.read (Elt Ideal) (whole V c) := by
  show (cfg0.win 5).cut (grid0.coords t) ((dat0 (F := Ideal) V c).after 5 t) = _
  rw [after0_5]
  unfold out0_5
  rw [View.canon_unit_zero hz]
  simp only [View.ld_unit_zero (S := S2000x768) hz, View.ld_unit_zero (S := S768x768) hz, View.ld_unit_zero (S := S1x768) hz]
  funext j
  obtain ⟨p, q, rfl⟩ : ∃ (p : Fin 2000) (q : Fin 768), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = whole V c (((cfg0.win 5).blk t).view.emb (ix2 p q))
  rw [out_emb t p q]
  refine (Payload.k0_pay1_apply (iblk0 V c 0 t) (iblk0 V c 1 t) (iblk0 V c 2 t) (iblk0 V c 3 t) (iblk0 V c 4 t) p q).trans ?_
  simp only [agg_blk V c t, feat_blk V c t, wl_blk V c t, wr_blk V c t, bias_blk V c t]
  rfl

/-- An index is in step t's block iff each coordinate is in the block's range. -/
theorem mem_blk (t : Fin cfg0.N) (i : S50000x768.Idx) :
    i ∈ ((cfg0.win 5).blk t).view.set ↔ ∀ a : Fin 2, win0_5.index t a * S2000x768.size a ≤ (i a).val ∧ (i a).val < win0_5.index t a * S2000x768.size a + S2000x768.size a := by
  show i ∈ ((View.whole main_v25).slice (win0_5.rect t)).set ↔ _
  rw [View.set_slice_whole, Rect.mem_set_unit]
  exact Iff.rfl

/-- Row r lies in the block of step r / 2000. -/
theorem cover (i : S50000x768.Idx) :
    ∃ t : Fin cfg0.N, (cfg0.win 5).flush t = true ∧ i ∈ ((cfg0.win 5).blk t).view.set := by
  have hi0 : (i 0).val < 50000 := (i 0).isLt
  have hi1 : (i 1).val < 768 := (i 1).isLt
  have hN : cfg0.N = 25 := N_0
  refine ⟨⟨(i 0).val / 2000, by rw [hN]; omega⟩, flush0_5 _, ?_⟩
  rw [mem_blk]
  obtain ⟨-, -, -, -, -, -, -, -, -, -, e50, e51⟩ := idx_facts ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e50]; show (i 0).val / 2000 * 2000 ≤ (i 0).val ∧ (i 0).val < (i 0).val / 2000 * 2000 + 2000; omega
  | ⟨1, _⟩ =>
    show win0_5.index _ (1 : Fin 2) * 768 ≤ (i 1).val ∧ (i 1).val < win0_5.index _ (1 : Fin 2) * 768 + 768
    rw [e51]; omega

/-- THE ARRAY after the region. -/
theorem final (c : Dev nD) : (dat0 (F := Ideal) V c).arrAt 5 cfg0.N = whole V c :=
  (dat0 (F := Ideal) V c).arrAt_eq_of_cover 5 (whole V c) (fun t _ => flushed_eq V c t) cover

end Cert.KernelIdeal.Region0

end
-- ==== Proof.Region1.lean ====
/-
  What the second pallas_call leaves in its output array, as one function of the arrays it finds on entry.

  The grid has 25 steps; step t works on rows 2000 t .. 2000 t + 1999 of the aggregate and of the node features,
  on the two whole weight matrices and the one bias row, and writes rows 2000 t .. 2000 t + 1999 of the output.
  Row 2000 t + p of the output depends only on the same row of the two row-blocked inputs, so every step's block
  is the restriction of ONE whole-array function, a layer of the network, and the 25 blocks tile the 50000 rows.
-/
import proofs.«139027_j38946763440879_1_alg».proof.Proof.Gen.KernelIdeal.Frame
import proofs.«139027_j38946763440879_1_alg».proof.Proof.Payload
import proofs.«139027_j38946763440879_1_alg».proof.Proof.Spec

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The arrays the region reads, at their literal types -/

/-- The aggregated features on entry. -/
abbrev aggArr (c : Dev nD) : Vec Ideal S50000x768 .f32 := V c main_v43
/-- The node features on entry. -/
abbrev featArr (c : Dev nD) : Vec Ideal S50000x768 .f32 := V c main_v25
/-- The transposed weight applied to the aggregate. -/
abbrev wlArr (c : Dev nD) : Vec Ideal S768x768 .f32 := V c main_v44
/-- The transposed weight applied to the node features. -/
abbrev wrArr (c : Dev nD) : Vec Ideal S768x768 .f32 := V c main_v45
/-- The bias, as a one-row matrix. -/
abbrev biasRow (c : Dev nD) : Vec Ideal S1x768 .f32 := V c main_v46

/-- The output array after the region: the layer of the entry arrays. -/
def whole (c : Dev nD) : Vec Ideal S50000x768 .f32 :=
  Cert.Sage.lin (aggArr V c) (featArr V c) (wlArr V c) (wrArr V c) (fun j => biasRow V c (ix2 (0 : Fin 1) (j 0)))

theorem hz : (![0, 0] : Fin 2 → Nat) = fun _ => 0 := funext fun a => by fin_cases a <;> rfl

/-- The row a step's block entry lands on: step t, row p of the block, is row 2000 t + p of the array. -/
def rowOf (t : Fin cfg1.N) (p : Fin 2000) : Fin 50000 :=
  ⟨t.val * 2000 + p.val, by
    have ht : t.val < 25 := lt_of_lt_of_eq t.isLt N_1
    have hp := p.isLt
    omega⟩

/-- The printed index maps over the grid: the row-blocked windows sit at block row t, column block 0; the
    weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each window's block at an entry -/

theorem agg_blk (c : Dev nD) (t : Fin cfg1.N) (p : Fin 2000) (k : Fin 768) :
    iblk1 V c 0 t (ix2 p k) = aggArr V c (ix2 (rowOf t p) k) := by
  show V c main_v43 (((cfg1.win 0).blk t).view.emb (ix2 p k)) = V c main_v43 (ix2 (rowOf t p) k)
  refine congrArg (V c main_v43) (funext fun a => Fin.ext ?_)
  obtain ⟨e00, e01, -⟩ := idx_facts t
  match a with
  | ⟨0, _⟩ => show win1_0.index t (0 : Fin 2) * 2000 + 1 * p.val = t.val * 2000 + p.val; omega
  | ⟨1, _⟩ => show win1_0.index t (1 : Fin 2) * 768 + 1 * k.val = k.val; omega

theorem feat_blk (c : Dev nD) (t : Fin cfg1.N) (p : Fin 2000) (k : Fin 768) :
    iblk1 V c 1 t (ix2 p k) = featArr V c (ix2 (rowOf t p) k) := by
  show V c main_v25 (((cfg1.win 1).blk t).view.emb (ix2 p k)) = V c main_v25 (ix2 (rowOf t p) k)
  refine congrArg (V c main_v25) (funext fun a => Fin.ext ?_)
  obtain ⟨-, -, e10, e11, -⟩ := idx_facts t
  match a with
  | ⟨0, _⟩ => show win1_1.index t (0 : Fin 2) * 2000 + 1 * p.val = t.val * 2000 + p.val; omega
  | ⟨1, _⟩ => show win1_1.index t (1 : Fin 2) * 768 + 1 * k.val = k.val; omega

theorem wl_blk (c : Dev nD) (t : Fin cfg1.N) (k q : Fin 768) :
    iblk1 V c 2 t (ix2 k q) = wlArr V c (ix2 k q) := by
  show V c main_v44 (((cfg1.win 2).blk t).view.emb (ix2 k q)) = V c main_v44 (ix2 k q)
  refine congrArg (V c main_v44) (funext fun a => Fin.ext ?_)
  obtain ⟨-, -, -, -, e20, e21, -⟩ := idx_facts t
  match a with
  | ⟨0, _⟩ => show win1_2.index t (0 : Fin 2) * 768 + 1 * k.val = k.val; omega
  | ⟨1, _⟩ => show win1_2.index t (1 : Fin 2) * 768 + 1 * q.val = q.val; omega

theorem wr_blk (c : Dev nD) (t : Fin cfg1.N) (k q : Fin 768) :
    iblk1 V c 3 t (ix2 k q) = wrArr V c (ix2 k q) := by
  show V c main_v45 (((cfg1.win 3).blk t).view.emb (ix2 k q)) = V c main_v45 (ix2 k q)
  refine congrArg (V c main_v45) (funext fun a => Fin.ext ?_)
  obtain ⟨-, -, -, -, -, -, e30, e31, -⟩ := idx_facts t
  match a with
  | ⟨0, _⟩ => show win1_3.index t (0 : Fin 2) * 768 + 1 * k.val = k.val; omega
  | ⟨1, _⟩ => show win1_3.index t (1 : Fin 2) * 768 + 1 * q.val = q.val; omega

theorem bias_blk (c : Dev nD) (t : Fin cfg1.N) (q : Fin 768) :
    iblk1 V c 4 t (ix2 (0 : Fin 1) q) = biasRow V c (ix2 (0 : Fin 1) q) := by
  show V c main_v46 (((cfg1.win 4).blk t).view.emb (ix2 (0 : Fin 1) q)) = V c main_v46 (ix2 (0 : Fin 1) q)
  refine congrArg (V c main_v46) (funext fun a => Fin.ext ?_)
  obtain ⟨-, -, -, -, -, -, -, -, e40, e41, -⟩ := idx_facts t
  match a with
  | ⟨0, _⟩ => show win1_4.index t (0 : Fin 2) * 1 + 1 * 0 = 0; omega
  | ⟨1, _⟩ => show win1_4.index t (1 : Fin 2) * 768 + 1 * q.val = q.val; omega

/-- Entry (p, q) of step t's output block is entry (2000 t + p, q) of the array. -/
theorem out_emb (t : Fin cfg1.N) (p : Fin 2000) (q : Fin 768) :
    ((cfg1.win 5).blk t).view.emb (ix2 p q) = (ix2 (rowOf t p) q : S50000x768.Idx) := by
  funext a; apply Fin.ext
  obtain ⟨-, -, -, -, -, -, -, -, -, -, e50, e51⟩ := idx_facts t
  match a with
  | ⟨0, _⟩ => show win1_5.index t (0 : Fin 2) * 2000 + 1 * p.val = t.val * 2000 + p.val; omega
  | ⟨1, _⟩ => show win1_5.index t (1 : Fin 2) * 768 + 1 * q.val = q.val; omega

/-! ## What a step writes back, and the array after all 25 -/

/-- Step t writes back its block of `whole`. -/
theorem flushed_eq (c : Dev nD) (t : Fin cfg1.N) :
    (dat1 (F := Ideal) V c).flushed 5 t = ((cfg1.win 5).blk t).view.read (Elt Ideal) (whole V c) := by
  show (cfg1.win 5).cut (grid1.coords t) ((dat1 (F := Ideal) V c).after 5 t) = _
  rw [after1_5]
  unfold out1_5
  rw [View.canon_unit_zero hz]
  simp only [View.ld_unit_zero (S := S2000x768) hz, View.ld_unit_zero (S := S768x768) hz, View.ld_unit_zero (S := S1x768) hz]
  funext j
  obtain ⟨p, q, rfl⟩ : ∃ (p : Fin 2000) (q : Fin 768), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = whole V c (((cfg1.win 5).blk t).view.emb (ix2 p q))
  rw [out_emb t p q]
  refine (Payload.k1_pay1_apply (iblk1 V c 0 t) (iblk1 V c 1 t) (iblk1 V c 2 t) (iblk1 V c 3 t) (iblk1 V c 4 t) p q).trans ?_
  simp only [agg_blk V c t, feat_blk V c t, wl_blk V c t, wr_blk V c t, bias_blk V c t]
  rfl

/-- An index is in step t's block iff each coordinate is in the block's range. -/
theorem mem_blk (t : Fin cfg1.N) (i : S50000x768.Idx) :
    i ∈ ((cfg1.win 5).blk t).view.set ↔ ∀ a : Fin 2, win1_5.index t a * S2000x768.size a ≤ (i a).val ∧ (i a).val < win1_5.index t a * S2000x768.size a + S2000x768.size a := by
  show i ∈ ((View.whole main_v47).slice (win1_5.rect t)).set ↔ _
  rw [View.set_slice_whole, Rect.mem_set_unit]
  exact Iff.rfl

/-- Row r lies in the block of step r / 2000. -/
theorem cover (i : S50000x768.Idx) :
    ∃ t : Fin cfg1.N, (cfg1.win 5).flush t = true ∧ i ∈ ((cfg1.win 5).blk t).view.set := by
  have hi0 : (i 0).val < 50000 := (i 0).isLt
  have hi1 : (i 1).val < 768 := (i 1).isLt
  have hN : cfg1.N = 25 := N_1
  refine ⟨⟨(i 0).val / 2000, by rw [hN]; omega⟩, flush1_5 _, ?_⟩
  rw [mem_blk]
  obtain ⟨-, -, -, -, -, -, -, -, -, -, e50, e51⟩ := idx_facts ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e50]; show (i 0).val / 2000 * 2000 ≤ (i 0).val ∧ (i 0).val < (i 0).val / 2000 * 2000 + 2000; omega
  | ⟨1, _⟩ =>
    show win1_5.index _ (1 : Fin 2) * 768 ≤ (i 1).val ∧ (i 1).val < win1_5.index _ (1 : Fin 2) * 768 + 768
    rw [e51]; omega

/-- THE ARRAY after the region. -/
theorem final (c : Dev nD) : (dat1 (F := Ideal) V c).arrAt 5 cfg1.N = whole V c :=
  (dat1 (F := Ideal) V c).arrAt_eq_of_cover 5 (whole V c) (fun t _ => flushed_eq V c t) cover

end Cert.KernelIdeal.Region1

end
-- ==== Proof.HostChain.lean ====
/-
  The arrays each pallas_call finds on entry, as terms of the launch memory.

  Before the first call the host computes the mean aggregate of the node features along the edge list: the source
  row of the edge list (negative indices wrapped by 50000) gathers rows of the features, the destination row
  scatter-adds them into 50000 rows, and each row is divided by its in-degree clipped below at 1. It also
  transposes the two weight matrices and lays the bias out as one row. Between the two calls it does the same with
  the first call's output in the place of the node features, reusing the two index rows it had already cut out of
  the edge list. The aggregation is named here ONCE, as a function `agg` of (features, edge list), and is never
  opened: both layers apply the same `agg`.
-/
import proofs.«139027_j38946763440879_1_alg».proof.Proof.Gen.KernelIdeal.Frame

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]

/-- Mean aggregation of `h` along the edge list `e`: gather by source, scatter-add by destination, divide by the
    clipped in-degree. -/
def agg (h : (⟨S50000x768, .f32⟩ : BufTy).Contents (Elt F)) (e : (⟨S2x100000, .i32⟩ : BufTy).Contents (Elt F)) :
    (⟨S50000x768, .f32⟩ : BufTy).Contents (Elt F) :=
  Host.divf (Host.scatterAdd scatter_S50000x768_S100000x1_S100000x768_1_0_0_1 (broadcastInDim S50000x768 ![] bcast_S_S50000x768 (constant S_ .f32 0x00000000#32)) (broadcastInDim S100000x1 ![0] bcast_S100000_S100000x1_0 (shapeCast _ (extractStridedSlice S1x100000 ![1, 0] e slices_S2x100000_S1x100000_1_0) shapeCasts_S1x100000_S100000)) (Host.gather gather_S50000x768_S100000x1_S100000x768_1_0_n_n_0_1_1768 h (broadcastInDim S100000x1 ![0] bcast_S100000_S100000x1_0 (select (cmpi .slt (shapeCast _ (extractStridedSlice S1x100000 ![0, 0] e slices_S2x100000_S1x100000_0_0) shapeCasts_S1x100000_S100000) (broadcastInDim S100000 ![] bcast_S_S100000 (constantI S_ 32 0#32))) (addi (shapeCast _ (extractStridedSlice S1x100000 ![0, 0] e slices_S2x100000_S1x100000_0_0) shapeCasts_S1x100000_S100000) (broadcastInDim S100000 ![] bcast_S_S100000 (constantI S_ 32 50000#32))) (shapeCast _ (extractStridedSlice S1x100000 ![0, 0] e slices_S2x100000_S1x100000_0_0) shapeCasts_S1x100000_S100000))))) (broadcastInDim S50000x768 ![0, 1] bcast_S50000x1_S50000x768_0_1 (broadcastInDim S50000x1 ![0] bcast_S50000_S50000x1_0 (maximumf (broadcastInDim S50000 ![] bcast_S_S50000 (id (constant S_ .f32 0x3F800000#32))) (Host.scatterAdd scatter_S50000_S100000x1_S100000_n_0_0_1 (broadcastInDim S50000 ![] bcast_S_S50000 (constant S_ .f32 0x00000000#32)) (broadcastInDim S100000x1 ![0] bcast_S100000_S100000x1_0 (shapeCast _ (extractStridedSlice S1x100000 ![1, 0] e slices_S2x100000_S1x100000_1_0) shapeCasts_S1x100000_S100000)) (broadcastInDim S100000 ![] bcast_S_S100000 (constant S_ .f32 0x3F800000#32))))))

/-- The edge list's source row. -/
def src (e : (⟨S2x100000, .i32⟩ : BufTy).Contents (Elt F)) : (⟨S100000, .i32⟩ : BufTy).Contents (Elt F) :=
  shapeCast _ (extractStridedSlice S1x100000 ![0, 0] e slices_S2x100000_S1x100000_0_0) shapeCasts_S1x100000_S100000
/-- The edge list's destination row. -/
def dst (e : (⟨S2x100000, .i32⟩ : BufTy).Contents (Elt F)) : (⟨S100000, .i32⟩ : BufTy).Contents (Elt F) :=
  shapeCast _ (extractStridedSlice S1x100000 ![1, 0] e slices_S2x100000_S1x100000_1_0) shapeCasts_S1x100000_S100000

variable (m : (ℓ : Loc nD τ sig) → Buf (Elt F) ℓ) (ρ : Dev nD → PrngReg)

/-! ## On entry to the first call -/

theorem entry0_agg (c : Dev nD) :
    W3 m ρ c (Proc.devRef .tc main_v21) = agg (m ((c : Thread nD τ).loc main_arg0)) (m ((c : Thread nD τ).loc main_arg1)) := by
  show StableHlo.after hostOps0_2 (StableHlo.after hostOps0_1 (StableHlo.after hostOps0 (W0 m ρ c))) (Proc.devRef .tc main_v21) = _
  after_results_simp
  unfold agg
  rfl

theorem entry0_bias (c : Dev nD) :
    W3 m ρ c (Proc.devRef .tc main_v24) = shapeCast S1x768 (m ((c : Thread nD τ).loc main_arg3)) shapeCasts_S768_S1x768 := by
  show StableHlo.after hostOps0_2 (StableHlo.after hostOps0_1 (StableHlo.after hostOps0 (W0 m ρ c))) (Proc.devRef .tc main_v24) = _
  after_results_simp <;> rfl

theorem entry0_wl (c : Dev nD) :
    W3 m ρ c (Proc.devRef .tc main_v22) = transpose S768x768 [1, 0] (m ((c : Thread nD τ).loc main_arg2)) transposes_S768x768_S768x768_1_0 := by
  show StableHlo.after hostOps0_2 (StableHlo.after hostOps0_1 (StableHlo.after hostOps0 (W0 m ρ c))) (Proc.devRef .tc main_v22) = _
  after_results_simp <;> rfl

theorem entry0_wr (c : Dev nD) :
    W3 m ρ c (Proc.devRef .tc main_v23) = transpose S768x768 [1, 0] (m ((c : Thread nD τ).loc main_arg4)) transposes_S768x768_S768x768_1_0 := by
  show StableHlo.after hostOps0_2 (StableHlo.after hostOps0_1 (StableHlo.after hostOps0 (W0 m ρ c))) (Proc.devRef .tc main_v23) = _
  after_results_simp <;> rfl

/-- The two index rows cut out of the edge list before the first call: what the second stretch reads again. -/
theorem W3_src (c : Dev nD) : W3 m ρ c (Proc.devRef .tc main_v1) = src (m ((c : Thread nD τ).loc main_arg1)) := by
  show StableHlo.after hostOps0_2 (StableHlo.after hostOps0_1 (StableHlo.after hostOps0 (W0 m ρ c))) (Proc.devRef .tc main_v1) = _
  after_results_simp <;> (unfold src; rfl)
theorem W3_dst (c : Dev nD) : W3 m ρ c (Proc.devRef .tc main_v3) = dst (m ((c : Thread nD τ).loc main_arg1)) := by
  show StableHlo.after hostOps0_2 (StableHlo.after hostOps0_1 (StableHlo.after hostOps0 (W0 m ρ c))) (Proc.devRef .tc main_v3) = _
  after_results_simp <;> (unfold dst; rfl)

/-- No host operation before the first call writes an argument. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-! ## On entry to the second call: the same stretch over the first call's output -/

/-- The aggregate the second call reads is `agg` of the first call's output array. -/
theorem entry1_agg (c : Dev nD) :
    W7 m ρ c (Proc.devRef .tc main_v43) = agg (W4 m ρ c (Proc.devRef .tc main_v25)) (m ((c : Thread nD τ).loc main_arg1)) := by
  show StableHlo.after hostOps1_2 (StableHlo.after hostOps1_1 (StableHlo.after hostOps1 (W4 m ρ c))) (Proc.devRef .tc main_v43) = _
  after_results_simp
  rw [W4_of_ne m ρ c main_v1 (by decide), W4_of_ne m ρ c main_v3 (by decide), W3_src, W3_dst]
  unfold agg src dst
  rfl

/-- The features the second call reads are the first call's output array, which the stretch between does not write. -/
theorem entry1_feat (c : Dev nD) :
    W7 m ρ c (Proc.devRef .tc main_v25) = W4 m ρ c (Proc.devRef .tc main_v25) := by
  show StableHlo.after hostOps1_2 (StableHlo.after hostOps1_1 (StableHlo.after hostOps1 (W4 m ρ c))) (Proc.devRef .tc main_v25) = _
  after_results_simp <;> rfl

theorem entry1_wl (c : Dev nD) :
    W7 m ρ c (Proc.devRef .tc main_v44) = transpose S768x768 [1, 0] (m ((c : Thread nD τ).loc main_arg5)) transposes_S768x768_S768x768_1_0 := by
  show StableHlo.after hostOps1_2 (StableHlo.after hostOps1_1 (StableHlo.after hostOps1 (W4 m ρ c))) (Proc.devRef .tc main_v44) = _
  after_results_simp
  rw [W4_of_ne m ρ c main_arg5 (by decide), W3_arg5]

theorem entry1_wr (c : Dev nD) :
    W7 m ρ c (Proc.devRef .tc main_v45) = transpose S768x768 [1, 0] (m ((c : Thread nD τ).loc main_arg7)) transposes_S768x768_S768x768_1_0 := by
  show StableHlo.after hostOps1_2 (StableHlo.after hostOps1_1 (StableHlo.after hostOps1 (W4 m ρ c))) (Proc.devRef .tc main_v45) = _
  after_results_simp
  rw [W4_of_ne m ρ c main_arg7 (by decide), W3_arg7]

theorem entry1_bias (c : Dev nD) :
    W7 m ρ c (Proc.devRef .tc main_v46) = shapeCast S1x768 (m ((c : Thread nD τ).loc main_arg6)) shapeCasts_S768_S1x768 := by
  show StableHlo.after hostOps1_2 (StableHlo.after hostOps1_1 (StableHlo.after hostOps1 (W4 m ρ c))) (Proc.devRef .tc main_v46) = _
  after_results_simp
  rw [W4_of_ne m ρ c main_arg6 (by decide), W3_arg6]
  rfl

end Cert.KernelIdeal.Host

end
-- ==== Proof.KernelValue.lean ====
/-
  The idealized kernel program's result is the two-layer network of the specification.

  After the run the result buffer holds the second call's output array. That array is a layer of the arrays the
  second call found on entry: the aggregate of the first call's output, that output itself, the two transposed
  second-layer weights and the second bias as a row. The first call's output is in turn the rectified layer of
  what IT found on entry: the aggregate of the node features, the node features, the transposed first-layer
  weights and the first bias as a row. A bias laid out as a one-row matrix and read back at row 0 is the bias.
-/
import proofs.«139027_j38946763440879_1_alg».proof.Proof.RunNamed
import proofs.«139027_j38946763440879_1_alg».proof.Proof.Region0
import proofs.«139027_j38946763440879_1_alg».proof.Proof.Region1
import proofs.«139027_j38946763440879_1_alg».proof.Proof.HostChain
import Idealize.ShloMosaic.Lib.ValueLayout

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

/-- A weight matrix transposed, as the host lays it out before each call. -/
abbrev tr (w : (⟨S768x768, .f32⟩ : BufTy).Contents (Elt Ideal)) : (⟨S768x768, .f32⟩ : BufTy).Contents (Elt Ideal) :=
  transpose S768x768 [1, 0] w transposes_S768x768_S768x768_1_0

/-- A bias laid out as a [1, 768] row and read at row 0 is the bias. -/
theorem bias_row (b : (⟨S768, .f32⟩ : BufTy).Contents (Elt Ideal)) :
    (fun j : Cert.Sage.SB.Idx => (shapeCast S1x768 b shapeCasts_S768_S1x768 : Vec Ideal S1x768 .f32) (ix2 (0 : Fin 1) (j 0))) = b := by
  funext j
  exact (shapeCast_a_1a_apply b shapeCasts_S768_S1x768 0 (j 0)).trans (congrArg b (eq_ix1 j).symm)

variable (m : (ℓ : Loc nD τ sig) → Buf (Elt Ideal) ℓ) (ρ : Dev nD → PrngReg)

/-- The first call's output array: the hidden features. -/
theorem hidden_eq (c : Dev nD) :
    W4 m ρ c (Proc.devRef .tc main_v25)
      = Cert.Sage.hidden (fun h => Host.agg h (m ((c : Thread nD τ).loc main_arg1))) (m ((c : Thread nD τ).loc main_arg0)) (tr (m ((c : Thread nD τ).loc main_arg2))) (tr (m ((c : Thread nD τ).loc main_arg4))) (m ((c : Thread nD τ).loc main_arg3)) := by
  rw [show W4 m ρ c (Proc.devRef .tc main_v25) = (dat0 (V3 m ρ) c).arrAt 5 cfg0.N from W4_arr m ρ c 5, Region0.final]
  show Cert.Sage.relu (Cert.Sage.lin (W3 m ρ c (Proc.devRef .tc main_v21)) (W3 m ρ c (Proc.devRef .tc main_arg0))
      (W3 m ρ c (Proc.devRef .tc main_v22)) (W3 m ρ c (Proc.devRef .tc main_v23))
      (fun j => (W3 m ρ c (Proc.devRef .tc main_v24) : Vec Ideal S1x768 .f32) (ix2 (0 : Fin 1) (j 0)))) = _
  rw [Host.entry0_agg, Host.W3_arg0, Host.entry0_wl, Host.entry0_wr, Host.entry0_bias, bias_row]
  rfl

/-- The result buffer after the run: the network of the launch arrays. -/
theorem result_eq (c : Dev nD) :
    W8 m ρ c (Proc.devRef .tc main_v47)
      = Cert.Sage.net (fun h => Host.agg h (m ((c : Thread nD τ).loc main_arg1))) (m ((c : Thread nD τ).loc main_arg0)) (tr (m ((c : Thread nD τ).loc main_arg2))) (tr (m ((c : Thread nD τ).loc main_arg4))) (m ((c : Thread nD τ).loc main_arg3))
          (tr (m ((c : Thread nD τ).loc main_arg5))) (tr (m ((c : Thread nD τ).loc main_arg7))) (m ((c : Thread nD τ).loc main_arg6)) := by
  rw [show W8 m ρ c (Proc.devRef .tc main_v47) = (dat1 (V7 m ρ) c).arrAt 5 cfg1.N from W8_arr m ρ c 5, Region1.final]
  show Cert.Sage.lin (W7 m ρ c (Proc.devRef .tc main_v43)) (W7 m ρ c (Proc.devRef .tc main_v25))
      (W7 m ρ c (Proc.devRef .tc main_v44)) (W7 m ρ c (Proc.devRef .tc main_v45))
      (fun j => (W7 m ρ c (Proc.devRef .tc main_v46) : Vec Ideal S1x768 .f32) (ix2 (0 : Fin 1) (j 0))) = _
  rw [Host.entry1_agg, Host.entry1_feat, Host.entry1_wl, Host.entry1_wr, Host.entry1_bias, bias_row, hidden_eq]
  rfl

/-- The idealized kernel's run with its result named: the network of the arguments, which end as launched. -/
theorem run : θ_run defs (onTc (τ := τ) (main (F := Ideal))) ⟨m, fun _ => 0, ρ⟩ (fun r => ∀ c : Dev nD,
      r.2.mem ((c.tc : Thread nD τ).loc main_v47)
        = Cert.Sage.net (fun h => Host.agg h (m ((c : Thread nD τ).loc main_arg1))) (m ((c : Thread nD τ).loc main_arg0)) (tr (m ((c : Thread nD τ).loc main_arg2))) (tr (m ((c : Thread nD τ).loc main_arg4))) (m ((c : Thread nD τ).loc main_arg3))
            (tr (m ((c : Thread nD τ).loc main_arg5))) (tr (m ((c : Thread nD τ).loc main_arg7))) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Named.run_named m ρ)

end Cert.KernelIdeal.Net

end
-- ==== Proof.RefValue.lean ====
/-
  The reference's result is the two-layer network of the specification.

  The reference computes each layer as (agg @ Wl^T + b) + x @ Wr^T with host matrix products and applies the
  rectifier between the layers. Read one operation at a time, each product is the sum over the shared axis, the
  bias broadcast reads the bias at the output feature, and the rectifier is max(., 0) against a zero constant.
  Moving the bias past the second product is the one algebraic step. The aggregation is the same chain of host
  operations in both layers; it is named once (`agg`) and the two aggregate stages are that function of the node
  features and of the hidden features, by unfolding only.
-/
import proofs.«139027_j38946763440879_1_alg».proof.Proof.Gen.ReferenceIdeal.Read
import proofs.«139027_j38946763440879_1_alg».proof.Proof.Spec

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- Mean aggregation of `h` along the edge list `e`: gather by source, scatter-add by destination, divide by the
    clipped in-degree. -/
def agg {F : FTy → Type} [FloatOps F] (h : (⟨S50000x768, .f32⟩ : BufTy).Contents (Elt F)) (e : (⟨S2x100000, .i32⟩ : BufTy).Contents (Elt F)) :
    (⟨S50000x768, .f32⟩ : BufTy).Contents (Elt F) :=
  Host.divf (Host.scatterAdd scatter_S50000x768_S100000x1_S100000x768_1_0_0_1 (broadcastInDim S50000x768 ![] bcast_S_S50000x768 (constant S_ .f32 0x00000000#32)) (broadcastInDim S100000x1 ![0] bcast_S100000_S100000x1_0 (shapeCast _ (extractStridedSlice S1x100000 ![1, 0] e slices_S2x100000_S1x100000_1_0) shapeCasts_S1x100000_S100000)) (Host.gather gather_S50000x768_S100000x1_S100000x768_1_0_n_n_0_1_1768 h (broadcastInDim S100000x1 ![0] bcast_S100000_S100000x1_0 (select (cmpi .slt (shapeCast _ (extractStridedSlice S1x100000 ![0, 0] e slices_S2x100000_S1x100000_0_0) shapeCasts_S1x100000_S100000) (broadcastInDim S100000 ![] bcast_S_S100000 (constantI S_ 32 0#32))) (addi (shapeCast _ (extractStridedSlice S1x100000 ![0, 0] e slices_S2x100000_S1x100000_0_0) shapeCasts_S1x100000_S100000) (broadcastInDim S100000 ![] bcast_S_S100000 (constantI S_ 32 50000#32))) (shapeCast _ (extractStridedSlice S1x100000 ![0, 0] e slices_S2x100000_S1x100000_0_0) shapeCasts_S1x100000_S100000))))) (broadcastInDim S50000x768 ![0, 1] bcast_S50000x1_S50000x768_0_1 (broadcastInDim S50000x1 ![0] bcast_S50000_S50000x1_0 (maximumf (broadcastInDim S50000 ![] bcast_S_S50000 (id (constant S_ .f32 0x3F800000#32))) (Host.scatterAdd scatter_S50000_S100000x1_S100000_n_0_0_1 (broadcastInDim S50000 ![] bcast_S_S50000 (constant S_ .f32 0x00000000#32)) (broadcastInDim S100000x1 ![0] bcast_S100000_S100000x1_0 (shapeCast _ (extractStridedSlice S1x100000 ![1, 0] e slices_S2x100000_S1x100000_1_0) shapeCasts_S1x100000_S100000)) (broadcastInDim S100000 ![] bcast_S_S100000 (constant S_ .f32 0x3F800000#32))))))

/-- A weight matrix transposed, as the host lays it out before each product. -/
abbrev tr (w : (⟨S768x768, .f32⟩ : BufTy).Contents (Elt Ideal)) : (⟨S768x768, .f32⟩ : BufTy).Contents (Elt Ideal) :=
  transpose S768x768 [1, 0] w transposes_S768x768_S768x768_1_0

/-! ## The aggregate stages are `agg` -/

theorem agg_layer1 (x0 : (⟨S50000x768, .f32⟩ : BufTy).Contents (Elt Ideal)) (x1 : (⟨S2x100000, .i32⟩ : BufTy).Contents (Elt Ideal)) : val_main_v21 (F := Ideal) x0 x1 = agg x0 x1 := by
  unfold agg val_main_v21 val_main_v13 val_main_v10 val_main_v20 val_main_v19 val_main_v18 val_main_v17 val_main_v12 val_main_v11 val_main_v9 val_main_v8 val_main_v7 val_main_v6 val_main_v5 val_main_v4 val_main_v3 val_main_v2 val_main_v1 val_main_v0 val_main_v14 val_main_v15 val_main_v16 val_main_call0_v1 val_main_call0_v0 val_main_cst_3 val_main_cst val_main_cst_1 val_main_cst_2 val_main_c val_main_c_0
  rfl

theorem agg_layer2 (x0 : (⟨S50000x768, .f32⟩ : BufTy).Contents (Elt Ideal)) (x1 : (⟨S2x100000, .i32⟩ : BufTy).Contents (Elt Ideal)) (x2 : (⟨S768x768, .f32⟩ : BufTy).Contents (Elt Ideal)) (x3 : (⟨S768, .f32⟩ : BufTy).Contents (Elt Ideal)) (x4 : (⟨S768x768, .f32⟩ : BufTy).Contents (Elt Ideal)) :
    val_main_v48 (F := Ideal) x0 x1 x2 x3 x4 = agg (val_main_v30 (F := Ideal) x0 x1 x2 x3 x4) x1 := by
  unfold agg val_main_v48 val_main_v40 val_main_v37 val_main_v47 val_main_v46 val_main_v45 val_main_v44 val_main_v39 val_main_v38 val_main_v36 val_main_v35 val_main_v34 val_main_v33 val_main_v32 val_main_v31 val_main_v3 val_main_v2 val_main_v1 val_main_v0 val_main_v41 val_main_v42 val_main_v43 val_main_call2_v1 val_main_call2_v0 val_main_cst_9 val_main_cst_6 val_main_cst_7 val_main_cst_8 val_main_c_4 val_main_c_5
  rfl

/-! ## The operand indices the stage lemmas name, as coordinates -/

theorem l23 (p : Fin 50000) (q k : Fin 768) : lidx_main_v23 (ix2 p q) k = (ix2 p k : S50000x768.Idx) :=
  funext fun a => Fin.ext (by match a with | ⟨0, _⟩ => rfl | ⟨1, _⟩ => rfl)

theorem r23 (p : Fin 50000) (q k : Fin 768) : ridx_main_v23 (ix2 p q) k = (ix2 k q : S768x768.Idx) :=
  funext fun a => Fin.ext (by match a with | ⟨0, _⟩ => rfl | ⟨1, _⟩ => rfl)

theorem l28 (p : Fin 50000) (q k : Fin 768) : lidx_main_v28 (ix2 p q) k = (ix2 p k : S50000x768.Idx) :=
  funext fun a => Fin.ext (by match a with | ⟨0, _⟩ => rfl | ⟨1, _⟩ => rfl)

theorem r28 (p : Fin 50000) (q k : Fin 768) : ridx_main_v28 (ix2 p q) k = (ix2 k q : S768x768.Idx) :=
  funext fun a => Fin.ext (by match a with | ⟨0, _⟩ => rfl | ⟨1, _⟩ => rfl)

theorem l50 (p : Fin 50000) (q k : Fin 768) : lidx_main_v50 (ix2 p q) k = (ix2 p k : S50000x768.Idx) :=
  funext fun a => Fin.ext (by match a with | ⟨0, _⟩ => rfl | ⟨1, _⟩ => rfl)

theorem r50 (p : Fin 50000) (q k : Fin 768) : ridx_main_v50 (ix2 p q) k = (ix2 k q : S768x768.Idx) :=
  funext fun a => Fin.ext (by match a with | ⟨0, _⟩ => rfl | ⟨1, _⟩ => rfl)

theorem l55 (p : Fin 50000) (q k : Fin 768) : lidx_main_v55 (ix2 p q) k = (ix2 p k : S50000x768.Idx) :=
  funext fun a => Fin.ext (by match a with | ⟨0, _⟩ => rfl | ⟨1, _⟩ => rfl)

theorem r55 (p : Fin 50000) (q k : Fin 768) : ridx_main_v55 (ix2 p q) k = (ix2 k q : S768x768.Idx) :=
  funext fun a => Fin.ext (by match a with | ⟨0, _⟩ => rfl | ⟨1, _⟩ => rfl)

theorem b25 (p : Fin 50000) (q : Fin 768) : idx_main_v24 (idx_main_v25 (ix2 p q)) = (ix1 q : S768.Idx) :=
  funext fun a => Fin.ext (by match a with | ⟨0, _⟩ => rfl)
theorem b52 (p : Fin 50000) (q : Fin 768) : idx_main_v51 (idx_main_v52 (ix2 p q)) = (ix1 q : S768.Idx) :=
  funext fun a => Fin.ext (by match a with | ⟨0, _⟩ => rfl)

/-! ## The hidden features, then the result -/

/-- The reference's rectified first layer is the specification's hidden features. -/
theorem hidden_eq (x0 : (⟨S50000x768, .f32⟩ : BufTy).Contents (Elt Ideal)) (x1 : (⟨S2x100000, .i32⟩ : BufTy).Contents (Elt Ideal)) (x2 : (⟨S768x768, .f32⟩ : BufTy).Contents (Elt Ideal)) (x3 : (⟨S768, .f32⟩ : BufTy).Contents (Elt Ideal)) (x4 : (⟨S768x768, .f32⟩ : BufTy).Contents (Elt Ideal)) :
    val_main_v30 (F := Ideal) x0 x1 x2 x3 x4 = Cert.Sage.hidden (fun h => agg h x1) x0 (tr x2) (tr x4) x3 := by
  funext j
  obtain ⟨p, q, rfl⟩ : ∃ (p : Fin 50000) (q : Fin 768), j = ix2 p q := ⟨j 0, j 1, eq_ix2 j⟩
  rw [val_main_v30_apply, val_main_v29_apply, val_main_v26_apply, val_main_v23_apply, val_main_v25_apply, val_main_v24_apply,
    val_main_v28_apply, val_main_call1_v0_apply, val_main_call1_cst_apply]
  simp only [l23, r23, l28, r28, b25, agg_layer1]
  show max (((∑ k : Fin 768, agg x0 x1 (ix2 p k) * tr x2 (ix2 k q)) + x3 (ix1 q)) + (∑ k : Fin 768, x0 (ix2 p k) * tr x4 (ix2 k q)))
        (Ideal.ofBits .f32 0x00000000#32)
      = max (Cert.Sage.linAt (agg x0 x1) x0 (tr x2) (tr x4) x3 p q) 0
  rw [Cert.Sage.linAt_bias_first, Ideal.ofBits_zero_f32]

/-- The reference's last stage is the specification's network. -/
theorem result_eq (x0 : (⟨S50000x768, .f32⟩ : BufTy).Contents (Elt Ideal)) (x1 : (⟨S2x100000, .i32⟩ : BufTy).Contents (Elt Ideal)) (x2 : (⟨S768x768, .f32⟩ : BufTy).Contents (Elt Ideal)) (x3 : (⟨S768, .f32⟩ : BufTy).Contents (Elt Ideal)) (x4 x5 : (⟨S768x768, .f32⟩ : BufTy).Contents (Elt Ideal)) (x6 : (⟨S768, .f32⟩ : BufTy).Contents (Elt Ideal)) (x7 : (⟨S768x768, .f32⟩ : BufTy).Contents (Elt Ideal)) :
    val_main_v56 (F := Ideal) x0 x1 x2 x3 x4 x5 x6 x7
      = Cert.Sage.net (fun h => agg h x1) x0 (tr x2) (tr x4) x3 (tr x5) (tr x7) x6 := by
  funext j
  obtain ⟨p, q, rfl⟩ : ∃ (p : Fin 50000) (q : Fin 768), j = ix2 p q := ⟨j 0, j 1, eq_ix2 j⟩
  rw [val_main_v56_apply, val_main_v53_apply, val_main_v50_apply, val_main_v52_apply, val_main_v51_apply, val_main_v55_apply]
  simp only [l50, r50, l55, r55, b52, agg_layer2, hidden_eq]
  unfold Cert.Sage.net
  rw [Cert.Sage.lin_apply]
  generalize Cert.Sage.hidden (fun h => agg h x1) x0 (tr x2) (tr x4) x3 = H
  exact Cert.Sage.linAt_bias_first (agg (F := Ideal) H x1) H (tr x5) (tr x7) x6 p q

/-- The reference run's result term is the network of the launch arrays. -/
theorem run_result (m : (ℓ : Loc nD τ sig) → Buf (Elt Ideal) ℓ) (c : Dev nD) :
    Cert.ReferenceIdeal.Value.res_main_v56 m c
      = Cert.Sage.net (fun h => agg h (m ((c.tc : Thread nD τ).loc main_arg1))) (m ((c.tc : Thread nD τ).loc main_arg0))
          (tr (m ((c.tc : Thread nD τ).loc main_arg2))) (tr (m ((c.tc : Thread nD τ).loc main_arg4))) (m ((c.tc : Thread nD τ).loc main_arg3))
          (tr (m ((c.tc : Thread nD τ).loc main_arg5))) (tr (m ((c.tc : Thread nD τ).loc main_arg7))) (m ((c.tc : Thread nD τ).loc main_arg6)) :=
  (val_main_v56_eq m c).trans (result_eq _ _ _ _ _ _ _ _)

end Cert.ReferenceIdeal.RefValue

end
-- ==== Proof.lean ====
/-
  Two GraphSAGE layers (mean aggregation along 100000 edges, two 768 x 768 linear maps and a bias per layer, a
  rectifier between the layers) over 50000 nodes: a Pallas kernel program against its jnp reference, on the
  extended reals.

  Both programs compute the aggregation on the host by the same chain of operations. The kernel program then runs
  each layer's dense part as a pallas_call over 25 row blocks of 2000 nodes: per block the two matrix products into
  zero accumulators (operands narrowed to bf16, which is the identity on the extended reals), their sum, the bias
  row, and in the first call the rectifier. The reference computes (agg @ Wl^T + b) + x @ Wr^T with host products.
  Both are the one function `Cert.Sage.net` of the argument arrays (Proof/Spec.lean): the kernel's by reading each
  call's output array off its run (Proof/Region0.lean, Proof/Region1.lean over Proof/Payload.lean), the host
  stretches around them (Proof/HostChain.lean) and the run with the result named (Proof/RunNamed.lean), assembled in
  Proof/KernelValue.lean; the reference's by reading its run one operation at a time (Proof/RefValue.lean). The only
  algebra is commutativity and associativity of addition, which hold on all extended reals, so the finiteness of the
  inputs is never used.
-/
import proofs.«139027_j38946763440879_1_alg».proof.Defs
import proofs.«139027_j38946763440879_1_alg».proof.Proof.Gen.Kernel
import proofs.«139027_j38946763440879_1_alg».proof.Proof.Gen.Kernel.Skeleton
import proofs.«139027_j38946763440879_1_alg».proof.Proof.Gen.Kernel.Launch
import proofs.«139027_j38946763440879_1_alg».proof.Proof.Gen.Kernel.Points
import proofs.«139027_j38946763440879_1_alg».proof.Proof.Gen.Kernel.Frame
import proofs.«139027_j38946763440879_1_alg».proof.Proof.Gen.KernelIdeal
import proofs.«139027_j38946763440879_1_alg».proof.Proof.Gen.KernelIdeal.Skeleton
import proofs.«139027_j38946763440879_1_alg».proof.Proof.Gen.KernelIdeal.Launch
import proofs.«139027_j38946763440879_1_alg».proof.Proof.Gen.KernelIdeal.Points
import proofs.«139027_j38946763440879_1_alg».proof.Proof.Gen.KernelIdeal.Frame
import proofs.«139027_j38946763440879_1_alg».proof.Proof.Gen.ReferenceIdeal
import proofs.«139027_j38946763440879_1_alg».proof.Proof.Gen.ReferenceIdeal.Run
import proofs.«139027_j38946763440879_1_alg».proof.Proof.Gen.ReferenceIdeal.Read
import proofs.«139027_j38946763440879_1_alg».proof.Proof.Gen.Pre_finite_inputs
import proofs.«139027_j38946763440879_1_alg».proof.Proof.KernelValue
import proofs.«139027_j38946763440879_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The two programs' aggregation chains are the same operations on the same shapes. -/
theorem agg_same (h : (⟨Cert.KernelIdeal.S50000x768, .f32⟩ : BufTy).Contents (Elt Ideal))
    (e : (⟨Cert.KernelIdeal.S2x100000, .i32⟩ : BufTy).Contents (Elt Ideal)) :
    Cert.ReferenceIdeal.RefValue.agg (F := Ideal) h e = Cert.KernelIdeal.Host.agg (F := Ideal) h e := by
  unfold Cert.ReferenceIdeal.RefValue.agg Cert.KernelIdeal.Host.agg
  rfl

/-- From memories that agree on the arguments both runs end at the network of those arguments. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.run_result]
  obtain ⟨a0, a1, a2, a3, a4, a5, a6, a7⟩ := hagree c
  rw [a0, a1, a2, a3, a4, a5, a6, a7]
  simp only [agg_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
